-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S6400000 : Shape := ⟨1, ![6400000]⟩
abbrev S6400000x3 : Shape := ⟨2, ![6400000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S6400000x3 : S_.BroadcastsInDim S6400000x3 (![] : Fin 0 → Fin S6400000x3.rank)
  reducesTo_S6400000x3_S_d0_1 : S6400000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg3 : IVec S6400000 32) (main_v33 : IVec S_ 1) : IVec S_ 1 :=
  let main_c_12 : IVec S_ 32 := constantI S_ 32 4294867296#32
  let main_v34 : IVec S6400000 32 := broadcastInDim S6400000 ![] bcast_S_S6400000 main_c_12
  let main_v35 : IVec S6400000 1 := cmpi .sge main_arg3 main_v34
  let main_c_13 : IVec S_ 1 := constantI S_ 1 1#1
  let main_v36 : IVec S_ 1 := (fun x v => Host.reduce IntOp.andi x v reducesTo_S6400000_S_d0 h_S_) main_v35 main_c_13
  let main_v37 : IVec S_ 1 := andi main_v33 main_v36
  let main_c_14 : IVec S_ 32 := constantI S_ 32 100000#32
  let main_v38 : IVec S6400000 32 := broadcastInDim S6400000 ![] bcast_S_S6400000 main_c_14
  let main_v39 : IVec S6400000 1 := cmpi .slt main_arg3 main_v38
  let main_c_15 : IVec S_ 1 := constantI S_ 1 1#1
  let main_v40 : IVec S_ 1 := (fun x v => Host.reduce IntOp.andi x v reducesTo_S6400000_S_d0 h_S_) main_v39 main_c_15
  let main_v41 : IVec S_ 1 := andi main_v37 main_v40
  main_v41

def fn_part1 {F : FTy → Type} [FloatOps F] (main_arg3 : IVec S6400000 32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg3 main_v33

def fn {F : FTy → Type} [FloatOps F] (main_arg0 : FVec F S100000x128 .f32) (main_arg1 : FVec F S6400000 .f32) (main_arg2 : FVec F S6400000x3 .f32) (main_arg3 : IVec S6400000 32) (main_arg4 : IVec S6400000 32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S6400000 .f32 := Host.absf main_arg1
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S6400000x3 .f32 := Host.absf main_arg2
  let main_cst_2 : FVec F S_ .f32 := constant S_ .f32 0x7F800000#32
  let main_v10 : FVec F S6400000x3 .f32 := broadcastInDim S6400000x3 ![] bcast_S_S6400000x3 main_cst_2
  let main_v11 : IVec S6400000x3 1 := cmpf .olt main_v9 main_v10
  let main_c_3 : IVec S_ 1 := constantI S_ 1 1#1
  let main_v12 : IVec S_ 1 := (fun x v => Host.reduce IntOp.andi x v reducesTo_S6400000x3_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg6 main_arg7 main_arg8 main_v13 main_v16
-- ==== Kernel.lean ====
abbrev S100000x128 : Shape := ⟨2, ![100000, 128]⟩
abbrev S6400000 : Shape := ⟨1, ![6400000]⟩
abbrev S6400000x3 : Shape := ⟨2, ![6400000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S100000x1 : Shape := ⟨2, ![100000, 1]⟩
abbrev S4000x128 : Shape := ⟨2, ![4000, 128]⟩
abbrev S4000x1 : Shape := ⟨2, ![4000, 1]⟩
abbrev S_ : Shape := ⟨0, ![]⟩
abbrev S6400000x1 : Shape := ⟨2, ![6400000, 1]⟩
abbrev S50000x128 : Shape := ⟨2, ![50000, 128]⟩
abbrev S5000x128 : Shape := ⟨2, ![5000, 128]⟩
abbrev S100000x3 : Shape := ⟨2, ![100000, 3]⟩

abbrev nBuf : Space → Nat
  | .hbm => 47
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S6400000, .f32⟩
  | .hbm, ⟨2, _⟩ => ⟨S6400000x3, .f32⟩
  | .hbm, ⟨3, _⟩ => ⟨S6400000, .i32⟩
  | .hbm, ⟨4, _⟩ => ⟨S6400000, .i32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x128, .f32⟩
  | .hbm, ⟨10, _⟩ => ⟨S1x1, .f32⟩
  | .hbm, ⟨11, _⟩ => ⟨S100000x1, .f32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S1, .i32⟩
  | .hbm, ⟨21, _⟩ => ⟨S_, .i32⟩
  | .hbm, ⟨22, _⟩ => ⟨S6400000x1, .i32⟩
  | .hbm, ⟨23, _⟩ => ⟨S6400000x1, .i1⟩
  | .hbm, ⟨24, _⟩ => ⟨S1x1, .i32⟩
  | .hbm, ⟨25, _⟩ => ⟨S6400000x1, .i32⟩
  | .hbm, ⟨26, _⟩ => ⟨S6400000x1, .i1⟩
  | .hbm, ⟨27, _⟩ => ⟨S6400000x1, .i1⟩
  | .hbm, ⟨28, _⟩ => ⟨S_, .i1⟩
  | .hbm, ⟨29, _⟩ => ⟨S6400000, .i1⟩
  | .hbm, ⟨30, _⟩ => ⟨S6400000x1, .f32⟩
  | .hbm, ⟨31, _⟩ => ⟨S6400000x1, .i1⟩
  | .hbm, ⟨32, _⟩ => ⟨S_, .f32⟩
  | .hbm, ⟨33, _⟩ => ⟨S6400000x1, .f32⟩
  | .hbm, ⟨34, _⟩ => ⟨S6400000x1, .f32⟩
  | .hbm, ⟨35, _⟩ => ⟨S6400000, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S6400000, .f32⟩
  | .hbm, ⟨40, _⟩ => ⟨S6400000x1, .f32⟩
  | .hbm, ⟨41, _⟩ => ⟨S6400000x3, .f32⟩
  | .hbm, ⟨42, _⟩ => ⟨S6400000x3, .f32⟩
  | .hbm, ⟨43, _⟩ => ⟨S_, .f32⟩
  | .hbm, ⟨44, _⟩ => ⟨S100000x3, .f32⟩
  | .hbm, ⟨45, _⟩ => ⟨S6400000x1, .i32⟩
  | .hbm, ⟨46, _⟩ => ⟨S100000x3, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S4000x1, .f32⟩
  | .local _ .vmem, ⟨7, _⟩ => ⟨S4000x1, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S128_S1x128 : S128.ShapeCasts S1x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  shapeCasts_S6400000x1_S6400000 : S6400000x1.ShapeCasts S6400000
  shapeCasts_S6400000_S50000x128 : S6400000.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  natLt_1_32 : 1 < 32
  shapeCasts_S50000x128_S6400000 : S50000x128.ShapeCasts S6400000
  bcast_S6400000x1_S6400000x3_0_1 : S6400000x1.BroadcastsInDim S6400000x3 (![0, 1] : Fin 2 → Fin S6400000x3.rank)
  bcast_S_S100000x3 : S_.BroadcastsInDim S100000x3 (![] : Fin 0 → Fin S100000x3.rank)
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  gather_S100000x1_S6400000x1_S6400000x1_1_0_n_n_0_1_11_wf : GatherDims.WF S100000x1 S6400000x1 S6400000x1 [1] [0] [] [0] [] 1 ![1, 1]
  scatter_S100000x3_S6400000x1_S6400000x3_1_0_0_1_wf : ScatterDims.WF S100000x3 S6400000x1 S6400000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S100000x1.size a
  hwx0_5 : ∀ i : grid0.Coords, EltTy.bits .f32 = 32 ∨ (Rect.block (s := S100000x1) S4000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def gather_S100000x1_S6400000x1_S6400000x1_1_0_n_n_0_1_11 : GatherDims S100000x1 S6400000x1 S6400000x1 where
  offsetDims := [1]
  collapsedSliceDims := [0]
  operandBatchingDims := []
  startIndicesBatchingDims := []
  startIndexMap := [0]
  indexVectorDim := 1
  sliceSizes := ![1, 1]
  wf := gather_S100000x1_S6400000x1_S6400000x1_1_0_n_n_0_1_11_wf
def scatter_S100000x3_S6400000x1_S6400000x3_1_0_0_1 : ScatterDims S100000x3 S6400000x1 S6400000x3 where
  updateWindowDims := [1]
  insertedWindowDims := [0]
  scatterDimsToOperandDims := [0]
  indexVectorDim := 1
  wf := scatter_S100000x3_S6400000x1_S6400000x3_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S6400000 : Shape := ⟨1, ![6400000]⟩
abbrev S6400000x3 : Shape := ⟨2, ![6400000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S100000x1 : Shape := ⟨2, ![100000, 1]⟩
abbrev S1x1 : Shape := ⟨2, ![1, 1]⟩
abbrev S6400000x1 : Shape := ⟨2, ![6400000, 1]⟩
abbrev S100000x3 : Shape := ⟨2, ![100000, 3]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S6400000, .f32⟩
  | .hbm, ⟨2, _⟩ => ⟨S6400000x3, .f32⟩
  | .hbm, ⟨3, _⟩ => ⟨S6400000, .i32⟩
  | .hbm, ⟨4, _⟩ => ⟨S6400000, .i32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000x128, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S100000x128, .f32⟩
  | .hbm, ⟨17, _⟩ => ⟨S100000x128, .f32⟩
  | .hbm, ⟨18, _⟩ => ⟨S_, .f32⟩
  | .hbm, ⟨19, _⟩ => ⟨S100000x128, .f32⟩
  | .hbm, ⟨20, _⟩ => ⟨S100000x128, .f32⟩
  | .hbm, ⟨21, _⟩ => ⟨S100000x128, .f32⟩
  | .hbm, ⟨22, _⟩ => ⟨S100000x1, .f32⟩
  | .hbm, ⟨23, _⟩ => ⟨S1x1, .f32⟩
  | .hbm, ⟨24, _⟩ => ⟨S100000x1, .f32⟩
  | .hbm, ⟨25, _⟩ => ⟨S100000x1, .f32⟩
  | .hbm, ⟨26, _⟩ => ⟨S100000x1, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x1, .f32⟩
  | .hbm, ⟨35, _⟩ => ⟨S_, .f32⟩
  | .hbm, ⟨36, _⟩ => ⟨S6400000, .f32⟩
  | .hbm, ⟨37, _⟩ => ⟨S6400000, .f32⟩
  | .hbm, ⟨38, _⟩ => ⟨S_, .f32⟩
  | .hbm, ⟨39, _⟩ => ⟨S6400000, .f32⟩
  | .hbm, ⟨40, _⟩ => ⟨S6400000, .f32⟩
  | .hbm, ⟨41, _⟩ => ⟨S6400000, .f32⟩
  | .hbm, ⟨42, _⟩ => ⟨S_, .f32⟩
  | .hbm, ⟨43, _⟩ => ⟨S6400000, .f32⟩
  | .hbm, ⟨44, _⟩ => ⟨S6400000, .f32⟩
  | .hbm, ⟨45, _⟩ => ⟨S_, .f32⟩
  | .hbm, ⟨46, _⟩ => ⟨S6400000, .f32⟩
  | .hbm, ⟨47, _⟩ => ⟨S6400000, .f32⟩
  | .hbm, ⟨48, _⟩ => ⟨S_, .f32⟩
  | .hbm, ⟨49, _⟩ => ⟨S6400000, .f32⟩
  | .hbm, ⟨50, _⟩ => ⟨S6400000, .i1⟩
  | .hbm, ⟨51, _⟩ => ⟨S6400000, .f32⟩
  | .hbm, ⟨52, _⟩ => ⟨S6400000, .f32⟩
  | .hbm, ⟨53, _⟩ => ⟨S_, .i32⟩
  | .hbm, ⟨54, _⟩ => ⟨S6400000, .i32⟩
  | .hbm, ⟨55, _⟩ => ⟨S6400000, .i1⟩
  | .hbm, ⟨56, _⟩ => ⟨S_, .i32⟩
  | .hbm, ⟨57, _⟩ => ⟨S6400000, .i32⟩
  | .hbm, ⟨58, _⟩ => ⟨S6400000, .i32⟩
  | .hbm, ⟨59, _⟩ => ⟨S6400000, .i32⟩
  | .hbm, ⟨60, _⟩ => ⟨S6400000x1, .i32⟩
  | .hbm, ⟨61, _⟩ => ⟨S6400000x1, .f32⟩
  | .hbm, ⟨62, _⟩ => ⟨S6400000x3, .f32⟩
  | .hbm, ⟨63, _⟩ => ⟨S6400000x3, .f32⟩
  | .hbm, ⟨64, _⟩ => ⟨S6400000x1, .f32⟩
  | .hbm, ⟨65, _⟩ => ⟨S6400000x3, .f32⟩
  | .hbm, ⟨66, _⟩ => ⟨S6400000x3, .f32⟩
  | .hbm, ⟨67, _⟩ => ⟨S_, .f32⟩
  | .hbm, ⟨68, _⟩ => ⟨S100000x3, .f32⟩
  | .hbm, ⟨69, _⟩ => ⟨S6400000x1, .i32⟩
  | .hbm, ⟨70, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_v11 : Ref sig .tc := ⟨.hbm, 37, rfl⟩
abbrev main_cst_0 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c : Ref sig .tc := ⟨.hbm, 53, rfl⟩
abbrev main_v23 : Ref sig .tc := ⟨.hbm, 54, rfl⟩
abbrev main_v24 : Ref sig .tc := ⟨.hbm, 55, rfl⟩
abbrev main_c_4 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S6400000x1_S6400000x3_0_1 : S6400000x1.BroadcastsInDim S6400000x3 (![0, 1] : Fin 2 → Fin S6400000x3.rank)
  bcast_S_S100000x3 : S_.BroadcastsInDim S100000x3 (![] : Fin 0 → Fin S100000x3.rank)
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000x1_S6400000x1_S6400000x1_1_0_n_n_0_1_11_wf : GatherDims.WF S100000x1 S6400000x1 S6400000x1 [1] [0] [] [0] [] 1 ![1, 1]
  scatter_S100000x3_S6400000x1_S6400000x3_1_0_0_1_wf : ScatterDims.WF S100000x3 S6400000x1 S6400000x3 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S6400000x1_S6400000x1_1_0_n_n_0_1_11 : GatherDims S100000x1 S6400000x1 S6400000x1 where
  offsetDims := [1]
  collapsedSliceDims := [0]
  operandBatchingDims := []
  startIndicesBatchingDims := []
  startIndexMap := [0]
  indexVectorDim := 1
  sliceSizes := ![1, 1]
  wf := gather_S100000x1_S6400000x1_S6400000x1_1_0_n_n_0_1_11_wf
def scatter_S100000x3_S6400000x1_S6400000x3_1_0_0_1 : ScatterDims S100000x3 S6400000x1 S6400000x3 where
  updateWindowDims := [1]
  insertedWindowDims := [0]
  scatterDimsToOperandDims := [0]
  indexVectorDim := 1
  wf := scatter_S100000x3_S6400000x1_S6400000x3_1_0_0_1_wf

class Facts : Prop extends Facts₀ where

variable [Facts]
-- ==== Proof.Bounds.lean ====
/-
  Names, at their literal types, for the arrays the kernel program holds at the boundaries between its launches and its
  stretches of host operations, and for its arguments as launched.
-/
import proofs.«416170_j9216999817553_3_alg».proof.Proof.Gen.KernelIdeal.Frame
import Idealize.ShloMosaic.Lib.ValueIdx

noncomputable section

namespace Cert.KernelIdeal.Bd

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The node features as launched. -/
abbrev xArg (c : Dev nD) : S100000x128.Idx → EReal := m ((c.tc : Thread nD τ).loc main_arg0)
/-- The edge distances as launched. -/
abbrev rijArg (c : Dev nD) : S6400000.Idx → EReal := m ((c.tc : Thread nD τ).loc main_arg1)
/-- The edge vectors as launched. -/
abbrev vijArg (c : Dev nD) : S6400000x3.Idx → EReal := m ((c.tc : Thread nD τ).loc main_arg2)
/-- The edges' source nodes as launched. -/
abbrev srcArg (c : Dev nD) : IVec S6400000 32 := m ((c.tc : Thread nD τ).loc main_arg3)
/-- The edges' destination nodes as launched. -/
abbrev dstArg (c : Dev nD) : IVec S6400000 32 := m ((c.tc : Thread nD τ).loc main_arg4)

/-- The charge column after the first launch. -/
abbrev chargeArr (c : Dev nD) : S100000x1.Idx → EReal := W2 m ρ c (Proc.devRef .tc main_v2)
/-- The gathered charges, one per edge, after the stretch between the launches. -/
abbrev takenArr (c : Dev nD) : S6400000x1.Idx → EReal := W3 m ρ c (Proc.devRef .tc main_v3)
/-- The gathered charges as the second launch finds them. -/
abbrev qsrc2 (c : Dev nD) : S50000x128.Idx → EReal := W4 m ρ c (Proc.devRef .tc main_v6)
/-- The distances as the second launch finds them. -/
abbrev rij2 (c : Dev nD) : S50000x128.Idx → EReal := W4 m ρ c (Proc.devRef .tc main_v5)
/-- The edge weights after the second launch. -/
abbrev weight2 (c : Dev nD) : S50000x128.Idx → EReal := W5 m ρ c (Proc.devRef .tc main_v7)
/-- The result after the last stretch. -/
abbrev resultArr (c : Dev nD) : S100000x3.Idx → EReal := W6 m ρ c (Proc.devRef .tc main_v14)

/-- Edge `128 r + l` sits at row `r`, lane `l` of the [50000, 128] view. -/
abbrev edgeOf (i : S50000x128.Idx) : Fin 6400000 :=
  ⟨128 * (i 0).val + (i 1).val, by
    have h0 : (i 0).val < 50000 := ValueIdx.idx2_lt0 i
    have h1 : (i 1).val < 128 := ValueIdx.idx2_lt1 i
    omega⟩

/-- The row and lane of an edge. -/
abbrev laneOf (e : Fin 6400000) : S50000x128.Idx :=
  ValueIdx.ix2 (⟨e.val / 128, by have := e.isLt; omega⟩ : Fin 50000) (⟨e.val % 128, Nat.mod_lt _ (by decide)⟩ : Fin 128)

end Cert.KernelIdeal.Bd

end
-- ==== Proof.Spec.lean ====
/-
  The mathematics both programs compute, stated once over the extended reals and over literal shapes.

  A node's charge is two dense layers with the swish activation, `q n = silu (∑ j, silu (∑ k, x n k · W1 k j + b1 j) · W2 j 0 + b2 0)`
  with `silu y = y · 1 / (1 + e^(-y))`. An edge `e` with distance `r e` carries the cosine cutoff
  `cut (r e) = 0.5 · (cos (π · r e / 5) + 1) · [r e < 5]`, and contributes to its destination node the vector
  `v e k · g e · cut (r e)`, where `g e` is the charge gathered at the edge's source node. The two programs differ only in
  how the product of the three factors is grouped, and in which integer conversion turns the comparison's bit into 0 or 1.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The word of `1.0` denotes the real one. -/
theorem word_one : Ideal.ofBits .f32 0x3F800000#32 = 1 := by
  simp [Ideal.ofBits, Ideal.ieee, -EReal.coe_mul]; norm_num

/-- A comparison's bit, widened to a word and read signed, is the bit read unsigned: both are 0 or 1. -/
theorem bit_signed_eq_unsigned (b : BitVec 1) : ((b.setWidth 32).toInt : ℝ) = ((b.toNat : ℕ) : ℝ) := by
  have h : b = 0#1 ∨ b = 1#1 := by
    rcases Nat.lt_or_ge b.toNat 1 with h | h
    · left; apply BitVec.eq_of_toNat_eq; simp; omega
    · right; apply BitVec.eq_of_toNat_eq; have := b.isLt; simp; omega
  rcases h with rfl | rfl <;> simp

/-- The swish activation: `y · σ(y)`. -/
def silu (y : EReal) : EReal := y * Ideal.logistic y

/-- The cosine cutoff of a distance, with its factors in the order the programs multiply them; `c` is the comparison's
    bit already turned into 0 or 1. -/
def cutWith (r c : EReal) : EReal :=
  (Ideal.ofBits .f32 0x3F000000#32
    * (Ideal.cos (Ideal.div (Ideal.ofBits .f32 0x40490FDB#32 * r) (Ideal.ofBits .f32 0x40A00000#32)) + Ideal.ofBits .f32 0x3F800000#32)) * c

/-- The comparison `r < 5` as 0 or 1. -/
def below (r : EReal) : EReal :=
  (((FloatOps.cmpf (F := Ideal) (φ := .f32) .olt r (Ideal.ofBits .f32 0x40A00000#32)).toNat : ℕ) : ℝ)

/-- The cosine cutoff. -/
def cut (r : EReal) : EReal := cutWith r (below r)

/-- One program widens the comparison's bit to a word and converts it signed: the same 0 or 1. -/
theorem below_of_signed (r : EReal) :
    FloatOps.sitofp (F := Ideal) .f32
        ((FloatOps.cmpf (F := Ideal) (φ := .f32) .olt r (Ideal.ofBits .f32 0x40A00000#32)).setWidth 32) = below r := by
  show (((_ : BitVec 32).toInt : ℝ) : EReal) = _
  rw [bit_signed_eq_unsigned]; rfl

/-- The other converts the bit unsigned. -/
theorem below_of_unsigned (r : EReal) :
    FloatOps.uitofp (F := Ideal) .f32
        (FloatOps.cmpf (F := Ideal) (φ := .f32) .olt r (Ideal.ofBits .f32 0x40A00000#32)) = below r := rfl

/-- One unit of the hidden layer at node `n`. -/
def hidden (x : (⟨2, ![100000, 128]⟩ : Shape).Idx → EReal) (w1 : (⟨2, ![128, 128]⟩ : Shape).Idx → EReal)
    (b1 : (⟨1, ![128]⟩ : Shape).Idx → EReal) (n : Fin 100000) (j : Fin 128) : EReal :=
  silu ((∑ k : Fin 128, x (ix2 n k) * w1 (ix2 k j)) + b1 (ix1 j))

/-- A node's charge. -/
def charge (x : (⟨2, ![100000, 128]⟩ : Shape).Idx → EReal) (w1 : (⟨2, ![128, 128]⟩ : Shape).Idx → EReal)
    (b1 : (⟨1, ![128]⟩ : Shape).Idx → EReal) (w2 : (⟨2, ![128, 1]⟩ : Shape).Idx → EReal)
    (b2 : (⟨1, ![1]⟩ : Shape).Idx → EReal) (n : Fin 100000) : EReal :=
  silu ((∑ j : Fin 128, hidden x w1 b1 n j * w2 (ix2 j (0 : Fin 1))) + b2 (ix1 (0 : Fin 1)))

/-- The charges as a column. -/
def charges (x : (⟨2, ![100000, 128]⟩ : Shape).Idx → EReal) (w1 : (⟨2, ![128, 128]⟩ : Shape).Idx → EReal)
    (b1 : (⟨1, ![128]⟩ : Shape).Idx → EReal) (w2 : (⟨2, ![128, 1]⟩ : Shape).Idx → EReal)
    (b2 : (⟨1, ![1]⟩ : Shape).Idx → EReal) : (⟨2, ![100000, 1]⟩ : Shape).Idx → EReal :=
  fun i => charge x w1 b1 w2 b2 ⟨(i 0).val, (i 0).isLt⟩

/-- What an edge adds to its destination, coordinate by coordinate: the edge vector times the gathered charge times the
    cutoff, grouped as the reference groups it. -/
def update (v : (⟨2, ![6400000, 3]⟩ : Shape).Idx → EReal) (r : (⟨1, ![6400000]⟩ : Shape).Idx → EReal)
    (g : (⟨2, ![6400000, 1]⟩ : Shape).Idx → EReal) : (⟨2, ![6400000, 3]⟩ : Shape).Idx → EReal :=
  fun i => (v i * g (ix2 ⟨(i 0).val, (i 0).isLt⟩ (0 : Fin 1))) * cut (r (ix1 ⟨(i 0).val, (i 0).isLt⟩))

/-- The kernel's grouping is the reference's: multiplication of extended reals is associative. -/
theorem regroup (a b c : EReal) : a * (b * c) = (a * b) * c := (mul_assoc a b c).symm

end Cert.Spec

end
-- ==== Proof.Node.lean ====
/-
  The first launch leaves the charges: its output array, assembled from the 25 row blocks of 4000 nodes, is the column of
  charges of the launch's arguments.
-/
import proofs.«416170_j9216999817553_3_alg».proof.Proof.Gen.KernelIdeal.Frame
import proofs.«416170_j9216999817553_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Node

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The two contractions, axis by axis -/

theorem hidL_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem hidL_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem hidR_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem hidR_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The hidden layer's contraction at row `p`, unit `j`: the row of the block against the column of the weights. -/
theorem hid_matmul (a : FVec Ideal S4000x128 .bf16) (w : FVec Ideal S128x128 .bf16) (p : Fin 4000) (j : Fin 128) :
    matmul dot_S4000x128_S128x128_S4000x128_1_0_0_1_n_n none a w (constant S4000x128 .f32 0x00000000#32) (ix2 p j)
      = ∑ k : Fin 128, a (ix2 p k) * w (ix2 k j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k := funext fun a => Fin.ext (by
    match a with
    | ⟨0, _⟩ => exact hidL_0 _ _
    | ⟨1, _⟩ => exact (hidL_1 _ _).trans hk)
  have er : dot_S4000x128_S128x128_S4000x128_1_0_0_1_n_n.rhsIdx (ix2 p j) ((contrEquiv1 dot_S4000x128_S128x128_S4000x128_1_0_0_1_n_n 128 rfl rfl).symm k) = ix2 k j := funext fun a => Fin.ext (by
    match a with
    | ⟨0, _⟩ => exact (hidR_0 _ _).trans hk
    | ⟨1, _⟩ => exact hidR_1 _ _)
  rw [el, er]

theorem outL_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem outL_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem outR_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem outR_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The output layer's contraction at row `p`: the row of hidden units against the one column of weights. -/
theorem out_matmul (a : FVec Ideal S4000x128 .bf16) (w : FVec Ideal S128x1 .bf16) (p : Fin 4000) :
    matmul dot_S4000x128_S128x1_S4000x1_1_0_0_1_n_n none a w (constant S4000x1 .f32 0x00000000#32) (ix2 p (0 : Fin 1))
      = ∑ j : Fin 128, a (ix2 p j) * w (ix2 j (0 : Fin 1)) := by
  simp only [matmul]
  rw [Ideal.matmul_constant_zero_apply, ← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 p (0 : Fin 1)) ((contrEquiv1 dot_S4000x128_S128x1_S4000x1_1_0_0_1_n_n 128 rfl rfl).symm k) = ix2 p k := funext fun a => Fin.ext (by
    match a with
    | ⟨0, _⟩ => exact outL_0 _ _
    | ⟨1, _⟩ => exact (outL_1 _ _).trans hk)
  have er : dot_S4000x128_S128x1_S4000x1_1_0_0_1_n_n.rhsIdx (ix2 p (0 : Fin 1)) ((contrEquiv1 dot_S4000x128_S128x1_S4000x1_1_0_0_1_n_n 128 rfl rfl).symm k) = ix2 k (0 : Fin 1) := funext fun a => Fin.ext (by
    match a with
    | ⟨0, _⟩ => exact (outR_0 _ _).trans hk
    | ⟨1, _⟩ => exact outR_1 _ _)
  rw [el, er]

/-! ## The bias rows -/

/-- The hidden bias, a row, broadcast down the block's rows. -/
theorem bias1_apply (b : FVec Ideal S1x128 .f32) (p : Fin 4000) (j : Fin 128) :
    broadcastTo S4000x128 (shapeCast S1x128 b shapeCasts_S1x128_S1x128) broadcasts_S1x128_S4000x128 (ix2 p j) = b (ix2 (0 : Fin 1) j) := by
  rw [shapeCast_self]
  refine broadcastTo_apply b _ (ix2 p j) (ix2 (0 : Fin 1) j) fun a => ?_
  match a with
  | ⟨0, _⟩ => rfl
  | ⟨1, _⟩ => rfl

/-- The output bias, one number, broadcast down the block's rows. -/
theorem bias2_apply (b : FVec Ideal S1x1 .f32) (p : Fin 4000) :
    broadcastTo S4000x1 (shapeCast S1x1 b shapeCasts_S1x1_S1x1) broadcasts_S1x1_S4000x1 (ix2 p (0 : Fin 1)) = b (ix2 (0 : Fin 1) (0 : Fin 1)) := by
  rw [shapeCast_self]
  refine broadcastTo_apply b _ (ix2 p (0 : Fin 1)) (ix2 (0 : Fin 1) (0 : Fin 1)) fun a => ?_
  match a with
  | ⟨0, _⟩ => rfl
  | ⟨1, _⟩ => rfl

/-! ## The body's value at a row -/

/-- The hidden layer before its activation, as the body forms it from the block of features, the first weights and the
    bias row (the narrowing to the matrix unit's format is the identity on the ideal values). -/
def preHidden (x0 : FVec Ideal S4000x128 .f32) (x1 : FVec Ideal S128x128 .f32) (x2 : FVec Ideal S1x128 .f32) :
    FVec Ideal S4000x128 .f32 :=
  addf (matmul dot_S4000x128_S128x128_S4000x128_1_0_0_1_n_n none (truncf .bf16 x0 bitsLt_bf16_f32) (truncf .bf16 x1 bitsLt_bf16_f32)
      (constant (F := Ideal) S4000x128 .f32 0x00000000#32))
    (broadcastTo S4000x128 (shapeCast S1x128 x2 shapeCasts_S1x128_S1x128) broadcasts_S1x128_S4000x128)

/-- The hidden layer: `y · σ(y)` of the above. -/
def hiddenAct (x0 : FVec Ideal S4000x128 .f32) (x1 : FVec Ideal S128x128 .f32) (x2 : FVec Ideal S1x128 .f32) :
    FVec Ideal S4000x128 .f32 :=
  mulf (preHidden x0 x1 x2) (logistic (preHidden x0 x1 x2))

/-- The output layer before its activation. -/
def preCharge (x0 : FVec Ideal S4000x128 .f32) (x1 : FVec Ideal S128x128 .f32) (x2 : FVec Ideal S1x128 .f32)
    (x3 : FVec Ideal S128x1 .f32) (x4 : FVec Ideal S1x1 .f32) : FVec Ideal S4000x1 .f32 :=
  addf (matmul dot_S4000x128_S128x1_S4000x1_1_0_0_1_n_n none (truncf .bf16 (hiddenAct x0 x1 x2) bitsLt_bf16_f32) (truncf .bf16 x3 bitsLt_bf16_f32)
      (constant (F := Ideal) S4000x1 .f32 0x00000000#32))
    (broadcastTo S4000x1 (shapeCast S1x1 x4 shapeCasts_S1x1_S1x1) broadcasts_S1x1_S4000x1)

/-- The body's stored value is `y · σ(y)` of the output layer's pre-activation. -/
theorem payload_eq (x0 : FVec Ideal S4000x128 .f32) (x1 : FVec Ideal S128x128 .f32) (x2 : FVec Ideal S1x128 .f32)
    (x3 : FVec Ideal S128x1 .f32) (x4 : FVec Ideal S1x1 .f32) :
    k0_pay1 (F := Ideal) x0 x1 x2 x3 x4 = mulf (preCharge x0 x1 x2 x3 x4) (logistic (preCharge x0 x1 x2 x3 x4)) := rfl

theorem preHidden_apply (x0 : FVec Ideal S4000x128 .f32) (x1 : FVec Ideal S128x128 .f32) (x2 : FVec Ideal S1x128 .f32)
    (p : Fin 4000) (j : Fin 128) :
    preHidden x0 x1 x2 (ix2 p j) = (∑ k : Fin 128, x0 (ix2 p k) * x1 (ix2 k j)) + x2 (ix2 (0 : Fin 1) j) := by
  unfold preHidden
  rw [addf_apply, hid_matmul, bias1_apply]
  rfl

theorem hiddenAct_apply (x0 : FVec Ideal S4000x128 .f32) (x1 : FVec Ideal S128x128 .f32) (x2 : FVec Ideal S1x128 .f32)
    (p : Fin 4000) (j : Fin 128) :
    hiddenAct x0 x1 x2 (ix2 p j)
      = Cert.Spec.silu ((∑ k : Fin 128, x0 (ix2 p k) * x1 (ix2 k j)) + x2 (ix2 (0 : Fin 1) j)) := by
  show preHidden x0 x1 x2 (ix2 p j) * Ideal.logistic (preHidden x0 x1 x2 (ix2 p j)) = _
  rw [preHidden_apply]
  rfl

theorem preCharge_apply (x0 : FVec Ideal S4000x128 .f32) (x1 : FVec Ideal S128x128 .f32) (x2 : FVec Ideal S1x128 .f32)
    (x3 : FVec Ideal S128x1 .f32) (x4 : FVec Ideal S1x1 .f32) (p : Fin 4000) :
    preCharge x0 x1 x2 x3 x4 (ix2 p (0 : Fin 1))
      = (∑ j : Fin 128,
          Cert.Spec.silu ((∑ k : Fin 128, x0 (ix2 p k) * x1 (ix2 k j)) + x2 (ix2 (0 : Fin 1) j)) * x3 (ix2 j (0 : Fin 1)))
        + x4 (ix2 (0 : Fin 1) (0 : Fin 1)) := by
  unfold preCharge
  rw [addf_apply, out_matmul, bias2_apply]
  refine congrArg (· + x4 (ix2 (0 : Fin 1) (0 : Fin 1))) (Finset.sum_congr rfl fun j _ => ?_)
  show hiddenAct x0 x1 x2 (ix2 p j) * x3 (ix2 j (0 : Fin 1)) = _
  rw [hiddenAct_apply]

/-- What the body computes at row `p` of its block: the charge of that row, from the block of features and the
    weights and biases as the body loads them. -/
theorem payload_apply (x0 : FVec Ideal S4000x128 .f32) (x1 : FVec Ideal S128x128 .f32) (x2 : FVec Ideal S1x128 .f32)
    (x3 : FVec Ideal S128x1 .f32) (x4 : FVec Ideal S1x1 .f32) (p : Fin 4000) :
    k0_pay1 (F := Ideal) x0 x1 x2 x3 x4 (ix2 p (0 : Fin 1))
      = Cert.Spec.silu ((∑ j : Fin 128,
          Cert.Spec.silu ((∑ k : Fin 128, x0 (ix2 p k) * x1 (ix2 k j)) + x2 (ix2 (0 : Fin 1) j)) * x3 (ix2 j (0 : Fin 1)))
          + x4 (ix2 (0 : Fin 1) (0 : Fin 1))) := by
  rw [payload_eq]
  show preCharge x0 x1 x2 x3 x4 (ix2 p (0 : Fin 1)) * Ideal.logistic (preCharge x0 x1 x2 x3 x4 (ix2 p (0 : Fin 1))) = _
  rw [preCharge_apply]
  rfl

/-! ## The region's entry contents: the arguments as launched, the two bias arrays reshaped -/

theorem entry_x (c : Dev nD) :
    (V1 m ρ c main_arg0 : S100000x128.Idx → EReal) = m ((c.tc : Thread nD τ).loc main_arg0) := by
  dsimp only [V1, W1, hostOps0]; after_results

theorem entry_w1 (c : Dev nD) :
    (V1 m ρ c main_arg5 : S128x128.Idx → EReal) = m ((c.tc : Thread nD τ).loc main_arg5) := by
  dsimp only [V1, W1, hostOps0]; after_results

theorem entry_w2 (c : Dev nD) :
    (V1 m ρ c main_arg7 : S128x1.Idx → EReal) = m ((c.tc : Thread nD τ).loc main_arg7) := by
  dsimp only [V1, W1, hostOps0]; after_results

theorem entry_b1 (c : Dev nD) :
    (V1 m ρ c main_v0 : S1x128.Idx → EReal)
      = shapeCast S1x128 (m ((c.tc : Thread nD τ).loc main_arg6) : S128.Idx → EReal) shapeCasts_S128_S1x128 := by
  dsimp only [V1, W1, hostOps0]; after_results; rfl

theorem entry_b2 (c : Dev nD) :
    (V1 m ρ c main_v1 : S1x1.Idx → EReal)
      = shapeCast S1x1 (m ((c.tc : Thread nD τ).loc main_arg8) : S1.Idx → EReal) shapeCasts_S1_S1x1 := by
  dsimp only [V1, W1, hostOps0]; after_results; rfl

/-- The hidden bias as the region finds it, a row: entry `j` of the bias vector. -/
theorem entry_b1_apply (c : Dev nD) (j : Fin 128) :
    (V1 m ρ c main_v0 : S1x128.Idx → EReal) (ix2 (0 : Fin 1) j)
      = (m ((c.tc : Thread nD τ).loc main_arg6) : S128.Idx → EReal) (ix1 j) := by
  rw [entry_b1]
  refine shapeCast_apply _ _ (ix2 (0 : Fin 1) j) (ix1 j) ?_
  rw [Shape.rowMajor_val_one, Shape.rowMajor_val_two]
  show j.val = 0 * 128 + j.val
  omega

/-- The output bias as the region finds it: the one entry of the bias vector. -/
theorem entry_b2_apply (c : Dev nD) :
    (V1 m ρ c main_v1 : S1x1.Idx → EReal) (ix2 (0 : Fin 1) (0 : Fin 1))
      = (m ((c.tc : Thread nD τ).loc main_arg8) : S1.Idx → EReal) (ix1 (0 : Fin 1)) := by
  rw [entry_b2]
  refine shapeCast_apply _ _ (ix2 (0 : Fin 1) (0 : Fin 1)) (ix1 (0 : Fin 1)) ?_
  rw [Shape.rowMajor_val_one, Shape.rowMajor_val_two]
  rfl

/-! ## The blocks the body loads, read off the region's entry contents -/

/-- The printed index maps over the grid: the feature and charge blocks move down the rows with the point, the weights
    and biases are whole arrays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the feature block at point `t` is row `4000 t + p` of the features. -/
theorem xblk_apply (c : Dev nD) (t : Fin cfg0.N) (p : Fin 4000) (k : Fin 128) (r : Fin 100000)
    (hr : r.val = t.val * 4000 + p.val) :
    (iblk0 (V1 m ρ) c 0 t : FVec Ideal S4000x128 .f32) (ix2 p k)
      = (m ((c.tc : Thread nD τ).loc main_arg0) : S100000x128.Idx → EReal) (ix2 r k) := by
  obtain ⟨e0, e1, -⟩ := idx_facts t
  unfold iblk0
  rw [View.read_apply]
  show V1 m ρ c main_arg0 _ = _
  rw [entry_x]
  congr 1
  funext a
  apply Fin.ext
  match a with
  | ⟨0, _⟩ => show win0_0.index t (0 : Fin 2) * 4000 + 1 * p.val = r.val; omega
  | ⟨1, _⟩ => show win0_0.index t (1 : Fin 2) * 128 + 1 * k.val = k.val; omega

/-- The first weights' block is the whole array at every point. -/
theorem w1blk_apply (c : Dev nD) (t : Fin cfg0.N) (k j : Fin 128) :
    (iblk0 (V1 m ρ) c 1 t : FVec Ideal S128x128 .f32) (ix2 k j)
      = (m ((c.tc : Thread nD τ).loc main_arg5) : S128x128.Idx → EReal) (ix2 k j) := by
  obtain ⟨-, -, e0, e1, -⟩ := idx_facts t
  unfold iblk0
  rw [View.read_apply]
  show V1 m ρ c main_arg5 _ = _
  rw [entry_w1]
  congr 1
  funext a
  apply Fin.ext
  match a with
  | ⟨0, _⟩ => show win0_1.index t (0 : Fin 2) * 128 + 1 * k.val = k.val; omega
  | ⟨1, _⟩ => show win0_1.index t (1 : Fin 2) * 128 + 1 * j.val = j.val; omega

/-- The hidden bias row's block is the whole row: entry `j` of the bias vector. -/
theorem b1blk_apply (c : Dev nD) (t : Fin cfg0.N) (j : Fin 128) :
    (iblk0 (V1 m ρ) c 2 t : FVec Ideal S1x128 .f32) (ix2 (0 : Fin 1) j)
      = (m ((c.tc : Thread nD τ).loc main_arg6) : S128.Idx → EReal) (ix1 j) := by
  obtain ⟨-, -, -, -, e0, e1, -⟩ := idx_facts t
  unfold iblk0
  rw [View.read_apply]
  show V1 m ρ c main_v0 _ = _
  rw [← entry_b1_apply m ρ c j]
  congr 1
  funext a
  apply Fin.ext
  match a with
  | ⟨0, _⟩ => show win0_2.index t (0 : Fin 2) * 1 + 1 * 0 = 0; omega
  | ⟨1, _⟩ => show win0_2.index t (1 : Fin 2) * 128 + 1 * j.val = j.val; omega

/-- The second weights' block is the whole column. -/
theorem w2blk_apply (c : Dev nD) (t : Fin cfg0.N) (j : Fin 128) :
    (iblk0 (V1 m ρ) c 3 t : FVec Ideal S128x1 .f32) (ix2 j (0 : Fin 1))
      = (m ((c.tc : Thread nD τ).loc main_arg7) : S128x1.Idx → EReal) (ix2 j (0 : Fin 1)) := by
  obtain ⟨-, -, -, -, -, -, e0, e1, -⟩ := idx_facts t
  unfold iblk0
  rw [View.read_apply]
  show V1 m ρ c main_arg7 _ = _
  rw [entry_w2]
  congr 1
  funext a
  apply Fin.ext
  match a with
  | ⟨0, _⟩ => show win0_3.index t (0 : Fin 2) * 128 + 1 * j.val = j.val; omega
  | ⟨1, _⟩ => show win0_3.index t (1 : Fin 2) * 1 + 1 * 0 = 0; omega

/-- The output bias's block is its one entry. -/
theorem b2blk_apply (c : Dev nD) (t : Fin cfg0.N) :
    (iblk0 (V1 m ρ) c 4 t : FVec Ideal S1x1 .f32) (ix2 (0 : Fin 1) (0 : Fin 1))
      = (m ((c.tc : Thread nD τ).loc main_arg8) : S1.Idx → EReal) (ix1 (0 : Fin 1)) := by
  obtain ⟨-, -, -, -, -, -, -, -, e0, e1, -⟩ := idx_facts t
  unfold iblk0
  rw [View.read_apply]
  show V1 m ρ c main_v1 _ = _
  rw [← entry_b2_apply m ρ c]
  congr 1
  funext a
  apply Fin.ext
  match a with
  | ⟨0, _⟩ => show win0_4.index t (0 : Fin 2) * 1 + 1 * 0 = 0; omega
  | ⟨1, _⟩ => show win0_4.index t (1 : Fin 2) * 1 + 1 * 0 = 0; omega

/-! ## One point's block of charges -/

/-- If the body's loads are the arrays' entries — the feature block's row `p` the features' row `r`, the rest the whole
    weights and biases — then what it stores at row `p` is the charge of node `r`. -/
theorem block_value (x0 : FVec Ideal S4000x128 .f32) (x1 : FVec Ideal S128x128 .f32) (x2 : FVec Ideal S1x128 .f32)
    (x3 : FVec Ideal S128x1 .f32) (x4 : FVec Ideal S1x1 .f32)
    (X : (⟨2, ![100000, 128]⟩ : Shape).Idx → EReal) (A1 : (⟨2, ![128, 128]⟩ : Shape).Idx → EReal)
    (B1 : (⟨1, ![128]⟩ : Shape).Idx → EReal) (A2 : (⟨2, ![128, 1]⟩ : Shape).Idx → EReal) (B2 : (⟨1, ![1]⟩ : Shape).Idx → EReal)
    (p : Fin 4000) (r : Fin 100000)
    (h0 : ∀ k : Fin 128, x0 (ix2 p k) = X (ix2 r k))
    (h1 : ∀ k j : Fin 128, x1 (ix2 k j) = A1 (ix2 k j))
    (h2 : ∀ j : Fin 128, x2 (ix2 (0 : Fin 1) j) = B1 (ix1 j))
    (h3 : ∀ j : Fin 128, x3 (ix2 j (0 : Fin 1)) = A2 (ix2 j (0 : Fin 1)))
    (h4 : x4 (ix2 (0 : Fin 1) (0 : Fin 1)) = B2 (ix1 (0 : Fin 1))) :
    k0_pay1 (F := Ideal) x0 x1 x2 x3 x4 (ix2 p (0 : Fin 1)) = Cert.Spec.charge X A1 B1 A2 B2 r := by
  rw [payload_apply]
  unfold Cert.Spec.charge Cert.Spec.hidden
  simp only [h0, h1, h2, h3, h4]

/-- The charges of the launch's arguments, as one column. -/
abbrev chargesOf (c : Dev nD) : S100000x1.Idx → EReal :=
  Cert.Spec.charges (m ((c.tc : Thread nD τ).loc main_arg0)) (m ((c.tc : Thread nD τ).loc main_arg5))
    (m ((c.tc : Thread nD τ).loc main_arg6)) (m ((c.tc : Thread nD τ).loc main_arg7)) (m ((c.tc : Thread nD τ).loc main_arg8))

theorem hz : (![0, 0] : Fin 2 → Nat) = fun _ => 0 := funext fun a => by fin_cases a <;> rfl

/-- What point `t` writes back is block `t` of the column of charges. -/
theorem flushed_eq (c : Dev nD) (t : Fin cfg0.N) :
    (dat0 (V1 m ρ) c).flushed 5 t = ((cfg0.win 5).blk t).view.read (Elt Ideal) (chargesOf m c) := by
  show (cfg0.win 5).cut (grid0.coords t) ((dat0 (V1 m ρ) c).after 5 t) = _
  rw [after0_5]
  unfold out0_5
  rw [View.canon_unit_zero hz]
  simp only [View.ld_unit_zero (S := S4000x128) hz, View.ld_unit_zero (S := S128x128) hz, View.ld_unit_zero (S := S1x128) hz,
    View.ld_unit_zero (S := S128x1) hz, View.ld_unit_zero (S := S1x1) hz]
  obtain ⟨-, -, -, -, -, -, -, -, -, -, e0, e1⟩ := idx_facts t
  have hN : grid0.N = 25 := N_0
  funext y
  have hy0 : (y 0).val < 4000 := (y 0).isLt
  have hy1 : (y 1).val < 1 := (y 1).isLt
  -- the block's row as an index with literal extents
  have hx : (win0_5.xinj (grid0.coords t) y : S4000x1.Idx) = ix2 (⟨(y 0).val, hy0⟩ : Fin 4000) (0 : Fin 1) :=
    funext fun a => Fin.ext (by
      match a with
      | ⟨0, _⟩ => rfl
      | ⟨1, _⟩ => show (y 1).val = 0; omega)
  -- the array's row under it
  have hr : ((((cfg0.win 5).blk t).view.emb y) 0).val = t.val * 4000 + (y 0).val := by
    show win0_5.index t (0 : Fin 2) * 4000 + 1 * (y 0).val = _; omega
  refine (congrArg (k0_pay1 (F := Ideal) (iblk0 (V1 m ρ) c 0 t) (iblk0 (V1 m ρ) c 1 t) (iblk0 (V1 m ρ) c 2 t) (iblk0 (V1 m ρ) c 3 t)
    (iblk0 (V1 m ρ) c 4 t)) hx).trans ?_
  exact block_value (iblk0 (V1 m ρ) c 0 t) (iblk0 (V1 m ρ) c 1 t) (iblk0 (V1 m ρ) c 2 t) (iblk0 (V1 m ρ) c 3 t) (iblk0 (V1 m ρ) c 4 t)
    (m ((c.tc : Thread nD τ).loc main_arg0)) (m ((c.tc : Thread nD τ).loc main_arg5)) (m ((c.tc : Thread nD τ).loc main_arg6))
    (m ((c.tc : Thread nD τ).loc main_arg7)) (m ((c.tc : Thread nD τ).loc main_arg8))
    ⟨(y 0).val, hy0⟩ ⟨((((cfg0.win 5).blk t).view.emb y) 0).val, ((((cfg0.win 5).blk t).view.emb y) 0).isLt⟩
    (fun k => xblk_apply m ρ c t ⟨(y 0).val, hy0⟩ k _ hr)
    (fun k j => w1blk_apply m ρ c t k j)
    (fun j => b1blk_apply m ρ c t j)
    (fun j => w2blk_apply m ρ c t j)
    (b2blk_apply m ρ c t)

/-- An index of the column is in point `t`'s block iff each coordinate is in the block's range on its axis. -/
theorem mem_blk (t : Fin cfg0.N) (i : S100000x1.Idx) :
    i ∈ ((cfg0.win 5).blk t).view.set
      ↔ ∀ a : Fin 2, win0_5.index t a * S4000x1.size a ≤ (i a).val ∧ (i a).val < win0_5.index t a * S4000x1.size a + S4000x1.size a := by
  show i ∈ ((View.whole main_v2).slice (win0_5.rect t)).set ↔ _
  rw [View.set_slice_whole, Rect.mem_set_unit]
  exact Iff.rfl

/-- Every node's row is in the block of the point `row / 4000`, which writes it back. -/
theorem cover (i : S100000x1.Idx) :
    ∃ t : Fin cfg0.N, (cfg0.win 5).flush t = true ∧ i ∈ ((cfg0.win 5).blk t).view.set := by
  have hN : grid0.N = 25 := N_0
  have hi0 : (i 0).val < 100000 := (i 0).isLt
  have hi1 : (i 1).val < 1 := (i 1).isLt
  have ht : (i 0).val / 4000 < cfg0.N := by show _ < grid0.N; omega
  refine ⟨⟨(i 0).val / 4000, ht⟩, flush0_5 _, ?_⟩
  obtain ⟨-, -, -, -, -, -, -, -, -, -, e0, e1⟩ := idx_facts ⟨(i 0).val / 4000, ht⟩
  have e0' : win0_5.index ⟨(i 0).val / 4000, ht⟩ (0 : Fin 2) = (i 0).val / 4000 := e0
  rw [mem_blk]
  intro a
  match a with
  | ⟨0, _⟩ =>
    show win0_5.index ⟨(i 0).val / 4000, ht⟩ (0 : Fin 2) * 4000 ≤ (i 0).val
      ∧ (i 0).val < win0_5.index ⟨(i 0).val / 4000, ht⟩ (0 : Fin 2) * 4000 + 4000
    omega
  | ⟨1, _⟩ =>
    show win0_5.index ⟨(i 0).val / 4000, ht⟩ (1 : Fin 2) * 1 ≤ (i 1).val
      ∧ (i 1).val < win0_5.index ⟨(i 0).val / 4000, ht⟩ (1 : Fin 2) * 1 + 1
    omega

/-- The charge array after the first launch. -/
theorem final0 (c : Dev nD) :
    (W2 m ρ c (Proc.devRef .tc main_v2) : S100000x1.Idx → EReal)
      = Cert.Spec.charges (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (W2_arr m ρ c 5).trans
    ((dat0 (V1 m ρ) c).arrAt_eq_of_cover 5 (chargesOf m c) (fun t _ => flushed_eq m ρ c t) cover)

end Cert.KernelIdeal.Node

end
-- ==== Proof.Edge.lean ====
/-
  The second launch multiplies, lane by lane over the [50000, 128] view of the edges, the gathered charge by the cosine
  cutoff of the distance.
-/
import proofs.«416170_j9216999817553_3_alg».proof.Proof.Gen.KernelIdeal.Frame
import proofs.«416170_j9216999817553_3_alg».proof.Proof.Spec
import proofs.«416170_j9216999817553_3_alg».proof.Proof.Bounds
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Edge

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Bd

variable (m : (ℓ : Loc nD τ sig) → Buf (Elt Ideal) ℓ) (ρ : Dev nD → PrngReg)

theorem zero_offsets : (![0, 0] : Fin 2 → Nat) = fun _ => 0 := funext fun a => by fin_cases a <;> rfl

/-- The body's result at a lane: the charge block's lane times the cutoff of the distance block's lane. The body turns the
    comparison's bit into 0 or 1 by widening it and converting signed. -/
theorem lane_eq (x0 x1 : Vec Ideal S5000x128 .f32) (j : S5000x128.Idx) :
    k1_pay1 x0 x1 j = x1 j * Cert.Spec.cut (x0 j) := by
  unfold k1_pay1
  simp only [shapeCast_self]
  show x1 j * ((Ideal.ofBits .f32 0x3F000000#32
      * (Ideal.cos (Ideal.div (Ideal.ofBits .f32 0x40490FDB#32 * x0 j) (Ideal.ofBits .f32 0x40A00000#32))
          + Ideal.ofBits .f32 0x3F800000#32))
      * FloatOps.sitofp (F := Ideal) .f32
          ((FloatOps.cmpf (F := Ideal) (φ := .f32) .olt (x0 j) (Ideal.ofBits .f32 0x40A00000#32)).setWidth 32)) = _
  rw [Cert.Spec.below_of_signed]
  rfl

/-- The whole-array function the launch computes: lane by lane, charge times cutoff. -/
abbrev weightOf (q r : S50000x128.Idx → EReal) : S50000x128.Idx → EReal := fun i => q i * Cert.Spec.cut (r i)

/-- At point `t` all three windows sit on block `(t, 0)`: rows `5000 t … 5000 t + 4999`, every lane. -/
theorem blocks_at : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val ∧ win1_2.index t (1 : Fin 2) = 0 :=
  (by decide +kernel : ∀ t : Fin grid1.N, _)

/-- The body's result as one lane-by-lane function of its two blocks. -/
theorem body_eq (x0 x1 : Vec Ideal S5000x128 .f32) : k1_pay1 x0 x1 = fun j => x1 j * Cert.Spec.cut (x0 j) :=
  funext (lane_eq x0 x1)

/-- The two arrays the launch reads, in any contents `V` it may find: the gathered charges and the distances, each as
    rows of 128 lanes. -/
abbrev chargesIn (V : (c : Dev nD) → (b : Ref sig .tc) → Buf (Elt Ideal) ((c : Thread nD τ).loc b)) (c : Dev nD) :
    S50000x128.Idx → EReal := V c main_v6
abbrev distancesIn (V : (c : Dev nD) → (b : Ref sig .tc) → Buf (Elt Ideal) ((c : Thread nD τ).loc b)) (c : Dev nD) :
    S50000x128.Idx → EReal := V c main_v5

/-- What point `t` writes back, whatever contents `V` the launch finds: block `t` of the lane-by-lane product of the
    charges' array and the cutoff of the distances' array. All three windows sit on the same block, so the two loaded
    blocks and the stored one read their arrays at the same index. -/
theorem written_back_of (V : (c : Dev nD) → (b : Ref sig .tc) → Buf (Elt Ideal) ((c : Thread nD τ).loc b))
    (c : Dev nD) (t : Fin cfg1.N) :
    (dat1 V c).flushed 2 t
      = ((cfg1.win 2).blk t).view.read (Elt Ideal) (weightOf (chargesIn V c) (distancesIn V c)) := by
  show (cfg1.win 2).cut (grid1.coords t) ((dat1 V c).after 2 t) = _
  rw [after1_2]
  unfold out1_2
  rw [View.canon_unit_zero zero_offsets]
  simp only [View.ld_unit_zero (S := S5000x128) zero_offsets]
  rw [body_eq]
  obtain ⟨e0, e1, e2, e3, e4, e5⟩ := blocks_at t
  funext j
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  show chargesIn V c (((cfg1.win 1).blk t).view.emb j) * Cert.Spec.cut (distancesIn V c (((cfg1.win 0).blk t).view.emb j))
    = chargesIn V c (((cfg1.win 2).blk t).view.emb j) * Cert.Spec.cut (distancesIn V c (((cfg1.win 2).blk t).view.emb j))
  rw [h0, h1]

/-- What point `t` writes back is block `t` of the whole-array function of the two arrays the launch finds. -/
theorem written_back (c : Dev nD) (t : Fin cfg1.N) :
    (dat1 (V4 m ρ) c).flushed 2 t
      = ((cfg1.win 2).blk t).view.read (Elt Ideal) (weightOf (qsrc2 m ρ c) (rij2 m ρ c)) :=
  written_back_of (V4 m ρ) c t

/-- An index of the array is in point `t`'s block iff each coordinate is in the block's range on its axis. -/
theorem in_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v7).slice (win1_2.rect t)).set ↔ _
  rw [View.set_slice_whole, Rect.mem_set_unit]
  exact Iff.rfl

/-- Every row `r` is written back by point `r / 5000`. -/
theorem covered (i : S50000x128.Idx) :
    ∃ t : Fin cfg1.N, (cfg1.win 2).flush t = true ∧ i ∈ ((cfg1.win 2).blk t).view.set := by
  have hi0 : (i 0).val < 50000 := idx2_lt0 i
  have hi1 : (i 1).val < 128 := idx2_lt1 i
  have hN : cfg1.N = 10 := N_1
  have ht : (i 0).val / 5000 < cfg1.N := by rw [hN]; omega
  obtain ⟨e0, e1, e2, e3, e4, e5⟩ := blocks_at ⟨(i 0).val / 5000, ht⟩
  refine ⟨⟨(i 0).val / 5000, ht⟩, flush1_2 _, ?_⟩
  rw [in_block]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]; omega

/-- The edge-weight array after the second launch, index by index, from the two arrays the launch finds. -/
theorem final1 (c : Dev nD) :
    weight2 m ρ c = fun i => qsrc2 m ρ c i * Cert.Spec.cut (rij2 m ρ c i) :=
  (W5_arr m ρ c 2).trans
    ((dat1 (V4 m ρ) c).arrAt_eq_of_cover 2 (weightOf (qsrc2 m ρ c) (rij2 m ρ c)) (fun t _ => written_back m ρ c t) covered)

end Cert.KernelIdeal.Edge

end
-- ==== Proof.PreRange.lean ====
/-
  What the precondition says about the source indices: its last two conjuncts are "every source index is at least -100000"
  and "every source index is below 100000", each an all-of over a signed word comparison.
-/
import proofs.«416170_j9216999817553_3_alg».proof.Pre_finite_inputs
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx
open Cert.Pre_finite_inputs

variable [Cert.Pre_finite_inputs.Facts]

/-- Where the precondition holds, every source index is a word in `-100000 … 99999`, read signed. -/
theorem src_range (a0 : FVec Ideal S100000x128 .f32) (a1 : FVec Ideal S6400000 .f32) (a2 : FVec Ideal S6400000x3 .f32)
    (a3 a4 : IVec S6400000 32) (a5 : FVec Ideal S128x128 .f32) (a6 : FVec Ideal S128 .f32) (a7 : FVec Ideal S128x1 .f32)
    (a8 : FVec Ideal S1 .f32)
    (h : Cert.Pre_finite_inputs.fn (F := Ideal) a0 a1 a2 a3 a4 a5 a6 a7 a8 = (fun _ => 1#1)) (e : S6400000.Idx) :
    (-100000 : Int) ≤ (a3 e).toInt ∧ (a3 e).toInt < 100000 := by
  haveI : Subsingleton S_.Idx := ⟨fun a b => funext fun d => d.elim0⟩
  -- the predicate's value at the one index of the scalar shape: the last "and" of the chain
  have h1 : IntOp.andi (IntOp.andi _ _) _ = 1#1 := congrFun h ix0
  obtain ⟨h2, hlt⟩ := IntOp.andi_eq_one.1 h1
  obtain ⟨-, hge⟩ := IntOp.andi_eq_one.1 h2
  -- each "all" read at the index e
  have hge' := Host.reduce_andi_all _ _ _ _ _ hge e
  have hlt' := Host.reduce_andi_all _ _ _ _ _ hlt e
  -- a comparison of vectors is lane by lane, and a broadcast scalar reads the scalar everywhere
  have hge'' : IntOp.cmpi .sge (a3 e) 4294867296#32 = 1#1 := hge'
  have hlt'' : IntOp.cmpi .slt (a3 e) 100000#32 = 1#1 := hlt'
  rw [IntOp.cmpi_sge] at hge''
  rw [IntOp.cmpi_slt] at hlt''
  rw [show (4294867296#32 : BitVec 32).toInt = -100000 by decide] at hge''
  rw [show (100000#32 : BitVec 32).toInt = 100000 by decide] at hlt''
  exact ⟨hge'', hlt''⟩

omit [Cert.Pre_finite_inputs.Facts] in
/-- A word in `-100000 … 99999`, wrapped by `+100000` when negative, lies in `0 … 99999`: both of the take's range tests
    answer one. -/
theorem wrapped_in_table (w : BitVec 32) (h : (-100000 : Int) ≤ w.toInt ∧ w.toInt < 100000) :
    IntOp.cmpi .sge (Scalar.select (IntOp.cmpi .slt w 0#32) (w + 100000#32) w) 0#32 = 1#1
      ∧ IntOp.cmpi .sle (Scalar.select (IntOp.cmpi .slt w 0#32) (w + 100000#32) w) 99999#32 = 1#1 := by
  obtain ⟨h₁, h₂⟩ := h
  have h0 : (0#32 : BitVec 32).toInt = 0 := by decide
  have h9 : (99999#32 : BitVec 32).toInt = 99999 := by decide
  by_cases hn : w.toInt < 0
  · -- a negative word is moved up by the table's length; the sum stays a small nonnegative integer, so no wrap-around
    have hc : IntOp.cmpi .slt w 0#32 = 1#1 := IntOp.cmpi_slt.2 (by rw [h0]; exact hn)
    have hs : (w + 100000#32).toInt = w.toInt + 100000 := by
      rw [BitVec.toInt_add, show (100000#32 : BitVec 32).toInt = 100000 by decide]
      exact Int.bmod_eq_of_le (by omega) (by omega)
    rw [hc, select_one, IntOp.cmpi_sge, IntOp.cmpi_sle, hs, h0, h9]
    constructor <;> omega
  · -- a nonnegative word is kept
    have hc : IntOp.cmpi .slt w 0#32 = 0#1 :=
      eq_zero_of_ne_one fun hc => hn (by have := IntOp.cmpi_slt.1 hc; rwa [h0] at this)
    rw [hc, select_zero, IntOp.cmpi_sge, IntOp.cmpi_sle, h0, h9]
    constructor <;> omega

end Cert.PreRange

end
-- ==== Proof.Take.lean ====
/-
  The gather between the launches. jnp's `take` wraps a negative index by the table's length, gathers, and then overwrites
  with a junk value every position whose wrapped index is outside `0 … 99999`. When every source index lies in
  `-100000 … 99999` the wrapped index is always inside, so nothing is overwritten and the result is the plain gather.
-/
import proofs.«416170_j9216999817553_3_alg».proof.Proof.Gen.KernelIdeal.Frame
import proofs.«416170_j9216999817553_3_alg».proof.Proof.Spec
import proofs.«416170_j9216999817553_3_alg».proof.Proof.Bounds
import proofs.«416170_j9216999817553_3_alg».proof.Proof.PreRange
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Take

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Bd

variable (m : (ℓ : Loc nD τ sig) → Buf (Elt Ideal) ℓ) (ρ : Dev nD → PrngReg)

/-- The source indices wrapped and laid as the column of start indices the gather reads. -/
def wrapped (src : IVec S6400000 32) : IVec S6400000x1 32 :=
  broadcastInDim S6400000x1 ![0] bcast_S6400000_S6400000x1_0
    (select (cmpi .slt src (broadcastInDim S6400000 ![] bcast_S_S6400000 (constantI S_ 32 0#32)))
      (addi src (broadcastInDim S6400000 ![] bcast_S_S6400000 (constantI S_ 32 100000#32))) src)

/-- A left fold by "and" over one-bit words, started at one and meeting only ones, is one. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a (List.mem_cons_self ..)⟩) fun n hn => hl n (List.mem_cons_of_mem _ hn)

/-- An "and"-reduction, along whatever axes, of an array of ones from the initial value one is one everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_one x _ _ hinit fun n _ => hx n

/-- A broadcast reads its operand at some index. -/
theorem bcast_reads {α : Type} {s t : Shape} (dims : Fin s.rank → Fin t.rank) (h : s.BroadcastsInDim t dims) (x : s.Idx → α)
    (j : t.Idx) : ∃ k : s.Idx, broadcastInDim t dims h x j = x k := ⟨_, rfl⟩

/-- Every entry of the wrapped column passes both range tests of the take. -/
theorem tests_one (src : IVec S6400000 32)
    (hr : ∀ e : S6400000.Idx, (-100000 : Int) ≤ (src e).toInt ∧ (src e).toInt < 100000) (i : S6400000x1.Idx) :
    andi (cmpi .sge (wrapped src) (broadcastInDim S6400000x1 ![] bcast_S_S6400000x1 (constantI S_ 32 0#32)))
      (cmpi .sle (wrapped src) (broadcastInDim S6400000x1 ![0, 1] bcast_S1x1_S6400000x1_0_1
        (broadcastInDim S1x1 ![1] bcast_S1_S1x1_1 (constantI S1 32 99999#32)))) i = 1#1 := by
  obtain ⟨k, hk⟩ := bcast_reads ![0] bcast_S6400000_S6400000x1_0
    (select (cmpi .slt src (broadcastInDim S6400000 ![] bcast_S_S6400000 (constantI S_ 32 0#32)))
      (addi src (broadcastInDim S6400000 ![] bcast_S_S6400000 (constantI S_ 32 100000#32))) src) i
  have hw : wrapped src i
      = Scalar.select (IntOp.cmpi .slt (src k) 0#32) (src k + 100000#32) (src k) := hk
  obtain ⟨h₁, h₂⟩ := Cert.PreRange.wrapped_in_table (src k) (hr k)
  show IntOp.andi (IntOp.cmpi .sge (wrapped src i) 0#32) (IntOp.cmpi .sle (wrapped src i) 99999#32) = 1#1
  rw [hw]
  exact IntOp.andi_eq_one.2 ⟨h₁, h₂⟩

/-- With every source index in range the take's mask is one everywhere. -/
theorem mask_one (src : IVec S6400000 32)
    (hr : ∀ e : S6400000.Idx, (-100000 : Int) ≤ (src e).toInt ∧ (src e).toInt < 100000) (i : S6400000x1.Idx) :
    broadcastInDim S6400000x1 ![0] bcast_S6400000_S6400000x1_0
      (Host.reduce IntOp.andi
        (andi (cmpi .sge (wrapped src) (broadcastInDim S6400000x1 ![] bcast_S_S6400000x1 (constantI S_ 32 0#32)))
          (cmpi .sle (wrapped src) (broadcastInDim S6400000x1 ![0, 1] bcast_S1x1_S6400000x1_0_1
            (broadcastInDim S1x1 ![1] bcast_S1_S1x1_1 (constantI S1 32 99999#32)))))
        (constantI S_ 1 1#1) reducesTo_S6400000x1_S6400000_d1 h_S_) i = 1#1 := by
  obtain ⟨k, hk⟩ := bcast_reads ![0] bcast_S6400000_S6400000x1_0
    (Host.reduce IntOp.andi
      (andi (cmpi .sge (wrapped src) (broadcastInDim S6400000x1 ![] bcast_S_S6400000x1 (constantI S_ 32 0#32)))
        (cmpi .sle (wrapped src) (broadcastInDim S6400000x1 ![0, 1] bcast_S1x1_S6400000x1_0_1
          (broadcastInDim S1x1 ![1] bcast_S1_S1x1_1 (constantI S1 32 99999#32)))))
      (constantI S_ 1 1#1) reducesTo_S6400000x1_S6400000_d1 h_S_) i
  rw [hk]
  exact reduce_andi_one _ _ _ _ rfl (tests_one src hr) k

/-- Contents carried to a buffer's own type and back are unchanged. -/
theorem ofBuf_toBuf {T : BufTy} {Val : EltTy → Type} (r : Ref sig .tc) (p1 : r.ty = T) (p2 : r.space ≠ .host)
    (p3 : r.isScoped = false) (q1 : r.ty = T) (q2 : r.space ≠ .host) (q3 : r.isScoped = false) (v : T.Contents Val) :
    (StableHlo.TRef.of r p1 p2 p3).ofBuf ((StableHlo.TRef.of r q1 q2 q3).toBuf v) = v := by
  subst p1; rfl

/-- The source indices' buffer has their own type: reading it at that type changes nothing. -/
theorem ofBuf_src (p1 : main_arg3.ty = ⟨S6400000, .i32⟩) (p2 : main_arg3.space ≠ .host) (p3 : main_arg3.isScoped = false)
    (v : IVec S6400000 32) :
    ((StableHlo.TRef.of (sig := sig) main_arg3 p1 p2 p3).ofBuf (Val := Elt Ideal) v : IVec S6400000 32) = v := rfl

/-- Likewise the charge column's buffer. -/
theorem ofBuf_charge (p1 : main_v2.ty = ⟨S100000x1, .f32⟩) (p2 : main_v2.space ≠ .host) (p3 : main_v2.isScoped = false)
    (v : S100000x1.Idx → EReal) :
    ((StableHlo.TRef.of (sig := sig) main_v2 p1 p2 p3).ofBuf (Val := Elt Ideal) v : S100000x1.Idx → EReal) = v := rfl

/-- Likewise the result's buffer, written at its own type. -/
theorem toBuf_taken (p1 : main_v3.ty = ⟨S6400000x1, .f32⟩) (p2 : main_v3.space ≠ .host) (p3 : main_v3.isScoped = false)
    (v : S6400000x1.Idx → EReal) :
    ((StableHlo.TRef.of (sig := sig) main_v3 p1 p2 p3).toBuf (Val := Elt Ideal) v : S6400000x1.Idx → EReal) = v := rfl

/-- With every source index in range, the stretch of host operations after the first launch leaves the plain gather of
    the charges at the wrapped indices. -/
theorem take_eq (c : Dev nD)
    (hr : ∀ e : S6400000.Idx, (-100000 : Int) ≤ (srcArg m c e).toInt ∧ (srcArg m c e).toInt < 100000) :
    takenArr m ρ c
      = Host.gather gather_S100000x1_S6400000x1_S6400000x1_1_0_n_n_0_1_11 (chargeArr m ρ c) (wrapped (srcArg m c)) := by
  -- the source indices are still as launched when the stretch starts: neither the two reshapes before the first launch
  -- nor that launch writes them
  have hsrc : W2 m ρ c (Proc.devRef .tc main_arg3) = srcArg m c :=
    (W2_of_ne m ρ c main_arg3 (by decide)).trans
      (StableHlo.after_of_forall_not_mem (b := Proc.devRef .tc main_arg3) _ _ (List.forall_iff_forall_mem.mp (by
        simp only [hostOps0, List.Forall, StableHlo.reshape_writes, Finset.mem_singleton]
        repeat' apply And.intro
        all_goals exact StableHlo.devRef_ne_of_ne (by decide))))
  -- the stretch's result is the composition of its operations over the charge column and the source indices
  show StableHlo.after hostOps1 (W2 m ρ c) (Proc.devRef .tc main_v3) = _
  after_results_simp
  rw [hsrc]
  -- every intermediate array is stored and read back at its own type
  simp only [ofBuf_toBuf]
  rw [toBuf_taken, ofBuf_src, ofBuf_charge]
  -- position by position: the mask is one, so the last select keeps the gathered value
  funext i
  rw [select_apply]
  have hm := mask_one (srcArg m c) hr i
  unfold wrapped at hm
  rw [hm, select_one]
  rfl

end Cert.KernelIdeal.Take

end
-- ==== Proof.Tail.lean ====
/-
  The host operations around the second launch only re-lay values: the flat edge arrays are viewed as [50000, 128] (edge
  `e` at row `e / 128`, lane `e % 128`) going in and flattened coming out, and the edge weight is laid along the three
  coordinates of the edge vectors before the scatter-add.
-/
import proofs.«416170_j9216999817553_3_alg».proof.Proof.Gen.KernelIdeal.Frame
import proofs.«416170_j9216999817553_3_alg».proof.Proof.Spec
import proofs.«416170_j9216999817553_3_alg».proof.Proof.Bounds
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Bd

variable (m : (ℓ : Loc nD τ sig) → Buf (Elt Ideal) ℓ) (ρ : Dev nD → PrngReg)

/-- A column `[6400000, 1]` flattened: entry `e` is the column's row `e`. -/
private theorem cast_col_flat {α : Type} (x : S6400000x1.Idx → α) (h : S6400000x1.ShapeCasts S6400000) (e : Fin 6400000) :
    shapeCast S6400000 x h (ix1 e) = x (ix2 e (0 : Fin 1)) :=
  shapeCast_apply x h _ _ (by
    rw [Shape.rowMajor_val_two, Shape.rowMajor_val_one]
    show e.val * 1 + 0 = e.val
    omega)

/-- A flat array viewed as `[50000, 128]`: row `r`, lane `l` is entry `128 r + l`. -/
private theorem cast_flat_lanes {α : Type} (x : S6400000.Idx → α) (h : S6400000.ShapeCasts S50000x128) (i : S50000x128.Idx) :
    shapeCast S50000x128 x h i = x (ix1 (edgeOf i)) :=
  shapeCast_apply x h _ _ (by
    rw [Shape.rowMajor_val_two, Shape.rowMajor_val_one]
    show 128 * (i 0).val + (i 1).val = (i 0).val * 128 + (i 1).val
    omega)

/-- The `[50000, 128]` view flattened: entry `e` is row `e / 128`, lane `e % 128`. -/
private theorem cast_lanes_flat {α : Type} (x : S50000x128.Idx → α) (h : S50000x128.ShapeCasts S6400000) (e : Fin 6400000) :
    shapeCast S6400000 x h (ix1 e) = x (laneOf e) :=
  shapeCast_apply x h _ _ (by
    rw [Shape.rowMajor_val_two, Shape.rowMajor_val_one]
    show e.val / 128 * 128 + e.val % 128 = e.val
    omega)

/-- What the stretch before the second launch leaves in the charges' view: the column flattened, then viewed as `[50000, 128]`. -/
private theorem read_v6 (V : Valuation τ sig (Elt Ideal)) :
    (StableHlo.after hostOps1_1 V (Proc.devRef .tc main_v6) : S50000x128.Idx → EReal)
      = shapeCast S50000x128 (shapeCast S6400000 (V (Proc.devRef .tc main_v3) : S6400000x1.Idx → EReal)
          shapeCasts_S6400000x1_S6400000) shapeCasts_S6400000_S50000x128 := by
  after_results
  rfl

/-- The view of the flattened column: row `r`, lane `l` holds the column's row `128 r + l`. -/
private theorem read_v6_at (V : Valuation τ sig (Elt Ideal)) (i : S50000x128.Idx) :
    (StableHlo.after hostOps1_1 V (Proc.devRef .tc main_v6) : S50000x128.Idx → EReal) i
      = (V (Proc.devRef .tc main_v3) : S6400000x1.Idx → EReal) (ix2 (edgeOf i) (0 : Fin 1)) := by
  rw [read_v6, cast_flat_lanes, cast_col_flat]

/-- The gathered charges as the second launch finds them: edge `128 r + l` at row `r`, lane `l`. -/
theorem qsrc2_eq (c : Dev nD) (i : S50000x128.Idx) :
    qsrc2 m ρ c i = takenArr m ρ c (ix2 (edgeOf i) (0 : Fin 1)) :=
  read_v6_at (W3 m ρ c) i

/-- What it leaves in the distances' view: the flat distances viewed as `[50000, 128]`. -/
private theorem read_v5 (V : Valuation τ sig (Elt Ideal)) :
    (StableHlo.after hostOps1_1 V (Proc.devRef .tc main_v5) : S50000x128.Idx → EReal)
      = shapeCast S50000x128 (V (Proc.devRef .tc main_arg1) : S6400000.Idx → EReal) shapeCasts_S6400000_S50000x128 := by
  after_results
  rfl

/-- No operation between the launch and the second pipeline writes the distances, and the first pipeline does not either. -/
private theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The distances as the second launch finds them. -/
theorem rij2_eq (c : Dev nD) (i : S50000x128.Idx) :
    rij2 m ρ c i = rijArg m c (ix1 (edgeOf i)) := by
  show (StableHlo.after hostOps1_1 (W3 m ρ c) (Proc.devRef .tc main_v5) : S50000x128.Idx → EReal) i = _
  rw [read_v5, cast_flat_lanes, W3_main_arg1]

/-- What the last stretch leaves in the result: the scatter-add, into zeros at the destination indices laid as a column, of the
    edge vectors times the weights flattened and laid along the three coordinates. -/
private theorem read_v14 (V : Valuation τ sig (Elt Ideal)) :
    (StableHlo.after hostOps2 V (Proc.devRef .tc main_v14) : S100000x3.Idx → EReal)
      = Host.scatterAdd scatter_S100000x3_S6400000x1_S6400000x3_1_0_0_1
          (broadcastInDim S100000x3 ![] bcast_S_S100000x3 (constant (F := Ideal) S_ .f32 0x00000000#32))
          (broadcastInDim S6400000x1 ![0] bcast_S6400000_S6400000x1_0 (V (Proc.devRef .tc main_arg4) : IVec S6400000 32))
          (mulf (V (Proc.devRef .tc main_arg2) : S6400000x3.Idx → EReal)
            (broadcastInDim S6400000x3 ![0, 1] bcast_S6400000x1_S6400000x3_0_1
              (broadcastInDim S6400000x1 ![0] bcast_S6400000_S6400000x1_0
                (shapeCast S6400000 (V (Proc.devRef .tc main_v7) : S50000x128.Idx → EReal) shapeCasts_S50000x128_S6400000)))) := by
  after_results
  rfl

/-- The last stretch does not write the destination indices, so the second pipeline's exit holds them as launched. -/
private theorem W5_main_arg4 (c : Dev nD) : W5 m ρ c (Proc.devRef .tc main_arg4) = m ((c : Thread nD τ).loc main_arg4) :=
  have step : W6 m ρ c (Proc.devRef .tc main_arg4) = W5 m ρ c (Proc.devRef .tc main_arg4) :=
    StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  step.symm.trans (W6_main_arg4 m ρ c)

/-- Nor the edge vectors. -/
private theorem W5_main_arg2 (c : Dev nD) : W5 m ρ c (Proc.devRef .tc main_arg2) = m ((c : Thread nD τ).loc main_arg2) :=
  have step : W6 m ρ c (Proc.devRef .tc main_arg2) = W5 m ρ c (Proc.devRef .tc main_arg2) :=
    StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  step.symm.trans (W6_main_arg2 m ρ c)

/-- The weights, flattened, then laid along a unit axis and along the three coordinates: at `(e, k)` the weight of edge `e`,
    which the `[50000, 128]` view holds at row `e / 128`, lane `e % 128`. -/
private theorem weight_at (w : S50000x128.Idx → EReal) (i : S6400000x3.Idx) :
    broadcastInDim S6400000x3 ![0, 1] bcast_S6400000x1_S6400000x3_0_1
        (broadcastInDim S6400000x1 ![0] bcast_S6400000_S6400000x1_0
          (shapeCast S6400000 w shapeCasts_S50000x128_S6400000)) i
      = w (laneOf ⟨(i 0).val, idx2_lt0 i⟩) := by
  refine (broadcastInDim_apply _ bcast_S6400000x1_S6400000x3_0_1 _ i
    (ix2 (⟨(i 0).val, idx2_lt0 i⟩ : Fin 6400000) (0 : Fin 1)) (fun a => match a with
      | ⟨0, _⟩ => by show (i 0).val = if (6400000 : Nat) = 1 then 0 else (i 0).val; rw [if_neg (by decide)]
      | ⟨1, _⟩ => by show 0 = if (1 : Nat) = 1 then 0 else (i 1).val; rw [if_pos rfl])).trans ?_
  refine (broadcastInDim_apply _ bcast_S6400000_S6400000x1_0 _ _
    (ix1 (⟨(i 0).val, idx2_lt0 i⟩ : Fin 6400000)) (fun a => match a with
      | ⟨0, _⟩ => by show (i 0).val = if (6400000 : Nat) = 1 then 0 else (i 0).val; rw [if_neg (by decide)])).trans ?_
  exact cast_lanes_flat _ _ _

/-- The result: the scatter-add, into zeros at the destination indices, of each edge vector times its edge's weight. -/
theorem result_eq (c : Dev nD) :
    resultArr m ρ c
      = Host.scatterAdd scatter_S100000x3_S6400000x1_S6400000x3_1_0_0_1
          (broadcastInDim S100000x3 ![] bcast_S_S100000x3 (constant (F := Ideal) S_ .f32 0x00000000#32))
          (broadcastInDim S6400000x1 ![0] bcast_S6400000_S6400000x1_0 (dstArg m c))
          (fun i : S6400000x3.Idx => vijArg m c i * weight2 m ρ c (laneOf ⟨(i 0).val, idx2_lt0 i⟩)) := by
  have h4 : (W5 m ρ c (Proc.devRef .tc main_arg4) : IVec S6400000 32) = dstArg m c := W5_main_arg4 m ρ c
  have h2 : (W5 m ρ c (Proc.devRef .tc main_arg2) : S6400000x3.Idx → EReal) = vijArg m c := W5_main_arg2 m ρ c
  refine (read_v14 (W5 m ρ c)).trans ?_
  rw [h4, h2]
  refine congrArg (Host.scatterAdd _ _ _) (funext fun i => ?_)
  exact (mulf_apply _ _ i).trans (congrArg (vijArg m c i * ·) (weight_at (weight2 m ρ c) i))

end Cert.KernelIdeal.Tail

end
-- ==== Proof.KResult.lean ====
/-
  The kernel program's result as a function of its arguments. The second launch's weight of edge `e` is the gathered
  charge times the cutoff; the host then multiplies the edge vector by it, so an edge contributes
  `v · (g · cut)`, which is the reference's `(v · g) · cut` because multiplication of extended reals is associative.
-/
import proofs.«416170_j9216999817553_3_alg».proof.Proof.Bounds
import proofs.«416170_j9216999817553_3_alg».proof.Proof.Spec
import proofs.«416170_j9216999817553_3_alg».proof.Proof.Node
import proofs.«416170_j9216999817553_3_alg».proof.Proof.Edge
import proofs.«416170_j9216999817553_3_alg».proof.Proof.Take
import proofs.«416170_j9216999817553_3_alg».proof.Proof.Tail

noncomputable section

namespace Cert.KernelIdeal.Result

open Idealize.ShloMosaic Idealize.ShloMosaic.TcCoe Idealize.SL.Sem Idealize.ShloMosaic.ValueIdx
open Cert.KernelIdeal Cert.KernelIdeal.Gen Cert.KernelIdeal.Bd

variable (m : (ℓ : Loc nD τ sig) → Buf (Elt Ideal) ℓ) (ρ : Dev nD → PrngReg)

/-- An edge's row and lane in the [50000, 128] view lead back to the edge. -/
theorem edgeOf_laneOf (e : Fin 6400000) : edgeOf (laneOf e) = e :=
  Fin.ext (by show 128 * (e.val / 128) + e.val % 128 = e.val; omega)

/-- What the kernel program scatters: the specification's update of the edge vectors, the distances and the charges
    gathered at the wrapped source indices. -/
theorem update_eq (c : Dev nD)
    (hr : ∀ e : S6400000.Idx, (-100000 : Int) ≤ (srcArg m c e).toInt ∧ (srcArg m c e).toInt < 100000) :
    (fun i : S6400000x3.Idx => vijArg m c i * weight2 m ρ c (laneOf ⟨(i 0).val, idx2_lt0 i⟩))
      = Cert.Spec.update (vijArg m c) (rijArg m c) (Host.gather gather_S100000x1_S6400000x1_S6400000x1_1_0_n_n_0_1_11 (Cert.Spec.charges (xArg m c) (m ((c.tc : Thread nD τ).loc main_arg5)) (m ((c.tc : Thread nD τ).loc main_arg6)) (m ((c.tc : Thread nD τ).loc main_arg7)) (m ((c.tc : Thread nD τ).loc main_arg8))) (Take.wrapped (srcArg m c))) := by
  have hw : weight2 m ρ c = fun i => qsrc2 m ρ c i * Cert.Spec.cut (rij2 m ρ c i) := Edge.final1 m ρ c
  have hg : takenArr m ρ c = Host.gather gather_S100000x1_S6400000x1_S6400000x1_1_0_n_n_0_1_11 (chargeArr m ρ c) (Take.wrapped (srcArg m c)) :=
    Take.take_eq m ρ c hr
  have hq : chargeArr m ρ c = Cert.Spec.charges (xArg m c) (m ((c.tc : Thread nD τ).loc main_arg5)) (m ((c.tc : Thread nD τ).loc main_arg6)) (m ((c.tc : Thread nD τ).loc main_arg7)) (m ((c.tc : Thread nD τ).loc main_arg8)) := Node.final0 m ρ c
  funext i
  rw [hw]
  show vijArg m c i * (qsrc2 m ρ c (laneOf ⟨(i 0).val, idx2_lt0 i⟩) * Cert.Spec.cut (rij2 m ρ c (laneOf ⟨(i 0).val, idx2_lt0 i⟩))) = _
  rw [Tail.qsrc2_eq, Tail.rij2_eq, edgeOf_laneOf, hg, hq, Cert.Spec.regroup]
  rfl

/-- The kernel program's result: the scatter-add, into zeros at the destination indices, of the specification's update. -/
theorem result_eq (c : Dev nD)
    (hr : ∀ e : S6400000.Idx, (-100000 : Int) ≤ (srcArg m c e).toInt ∧ (srcArg m c e).toInt < 100000) :
    resultArr m ρ c
      = Host.scatterAdd scatter_S100000x3_S6400000x1_S6400000x3_1_0_0_1
          (broadcastInDim S100000x3 ![] bcast_S_S100000x3 (constant (F := Ideal) S_ .f32 0x00000000#32))
          (broadcastInDim S6400000x1 ![0] bcast_S6400000_S6400000x1_0 (dstArg m c))
          (Cert.Spec.update (vijArg m c) (rijArg m c) (Host.gather gather_S100000x1_S6400000x1_S6400000x1_1_0_n_n_0_1_11 (Cert.Spec.charges (xArg m c) (m ((c.tc : Thread nD τ).loc main_arg5)) (m ((c.tc : Thread nD τ).loc main_arg6)) (m ((c.tc : Thread nD τ).loc main_arg7)) (m ((c.tc : Thread nD τ).loc main_arg8))) (Take.wrapped (srcArg m c)))) := by
  rw [Tail.result_eq, update_eq m ρ c hr]

end Cert.KernelIdeal.Result

end
-- ==== Proof.RefCharge.lean ====
/-
  The reference's two dense layers with swish, read index by index: the column it gathers from is the column of charges.
  Its swish is spelled `y · (1 / (1 + e^(-y)))`, which is the logistic function's definition.
-/
import proofs.«416170_j9216999817553_3_alg».proof.Proof.Gen.ReferenceIdeal.Read
import proofs.«416170_j9216999817553_3_alg».proof.Proof.Spec
import Idealize.ShloMosaic.Lib.ValueIdx
import Idealize.ShloMosaic.PureOps.Ideal.Laws

noncomputable section

open scoped BigOperators

namespace Cert.ReferenceIdeal.Charge

open Idealize.ShloMosaic Idealize.ShloMosaic.TcCoe Idealize.SL.Sem Idealize.ShloMosaic.ValueIdx
open Cert.ReferenceIdeal Cert.ReferenceIdeal.Gen Cert.ReferenceIdeal.Read

/-- The left operand's index in the first product: row `n`, column `k`. -/
private theorem lidx0 (n : Fin 100000) (j k : Fin 128) : lidx_main_v0 (ix2 n j) k = ix2 n k :=
  funext fun a => Fin.ext (by match a with | ⟨0, _⟩ => rfl | ⟨1, _⟩ => rfl)

/-- The right operand's index in the first product: row `k`, column `j`. -/
private theorem ridx0 (n : Fin 100000) (j k : Fin 128) : ridx_main_v0 (ix2 n j) k = ix2 k j :=
  funext fun a => Fin.ext (by match a with | ⟨0, _⟩ => rfl | ⟨1, _⟩ => rfl)

/-- The first bias, broadcast over the rows, is read at the column. -/
private theorem bidx0 (n : Fin 100000) (j : Fin 128) : idx_main_v1 (idx_main_v2 (ix2 n j)) = ix1 j :=
  funext fun a => Fin.ext (by match a with | ⟨0, _⟩ => rfl)

/-- The left operand's index in the second product: row `n`, column `k`. -/
private theorem lidx5 (n : Fin 100000) (k : Fin 128) : lidx_main_v5 (ix2 n (0 : Fin 1)) k = ix2 n k :=
  funext fun a => Fin.ext (by match a with | ⟨0, _⟩ => rfl | ⟨1, _⟩ => rfl)

/-- The right operand's index in the second product: row `k`, the one column. -/
private theorem ridx5 (n : Fin 100000) (k : Fin 128) : ridx_main_v5 (ix2 n (0 : Fin 1)) k = ix2 k (0 : Fin 1) :=
  funext fun a => Fin.ext (by match a with | ⟨0, _⟩ => rfl | ⟨1, _⟩ => rfl)

/-- The second bias, broadcast over the rows, is read at its one entry. -/
private theorem bidx5 (n : Fin 100000) : idx_main_v6 (idx_main_v7 (ix2 n (0 : Fin 1))) = ix1 (0 : Fin 1) :=
  funext fun a => Fin.ext (by match a with | ⟨0, _⟩ => rfl)

/-- The hidden layer, entry `(n, j)`: the affine form `∑ k, x n k · W1 k j + b1 j` under the swish, whose logistic factor the
    reference spells `1 / (1 + e^(-y))`. -/
private theorem hidden_eq (x0 : S100000x128.Idx → EReal) (x5 : S128x128.Idx → EReal) (x6 : S128.Idx → EReal)
    (n : Fin 100000) (j : Fin 128) :
    val_main_v4 (F := Ideal) x0 x5 x6 (ix2 n j) = Cert.Spec.hidden x0 x5 x6 n j := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, val_main_v3_apply, val_main_v0_apply, val_main_v2_apply, val_main_v1_apply]
  simp only [lidx0, ridx0, bidx0, Ideal.hostDivf_def, Ideal.hostUnary_exp_def, Ideal.hostNegf_def, Ideal.negf_def,
    Ideal.addf_def, Ideal.mulf_def, Ideal.ofBits_def, Cert.Spec.word_one, Cert.Spec.hidden, Cert.Spec.silu, Ideal.logistic]

/-- The reference's charge column is the specification's. -/
theorem charge_eq (x0 : S100000x128.Idx → EReal) (x5 : S128x128.Idx → EReal) (x6 : S128.Idx → EReal)
    (x7 : S128x1.Idx → EReal) (x8 : S1.Idx → EReal) :
    val_main_v9 (F := Ideal) x0 x5 x6 x7 x8 = Cert.Spec.charges x0 x5 x6 x7 x8 := by
  funext i
  -- an index of the column is a row `n` and the one column
  obtain ⟨n, z, rfl⟩ : ∃ (n : Fin 100000) (z : Fin 1), i = ix2 n z := ⟨i 0, i 1, eq_ix2 i⟩
  obtain rfl : z = 0 := Subsingleton.elim _ _
  rw [val_main_v9_apply, val_main_call1_v5_apply, val_main_call1_v4_apply, val_main_call1_cst_0_apply,
    val_main_call1_v3_apply, val_main_call1_v2_apply, val_main_call1_cst_apply, val_main_call1_v1_apply,
    val_main_call1_v0_apply, val_main_v8_apply, val_main_v5_apply, val_main_v7_apply, val_main_v6_apply]
  simp only [lidx5, ridx5, bidx5, hidden_eq, Ideal.hostDivf_def, Ideal.hostUnary_exp_def, Ideal.hostNegf_def, Ideal.negf_def,
    Ideal.addf_def, Ideal.mulf_def, Ideal.ofBits_def, Cert.Spec.word_one, Cert.Spec.charges, Cert.Spec.charge, Cert.Spec.silu,
    Ideal.logistic]

end Cert.ReferenceIdeal.Charge

end
-- ==== Proof.RefUpdate.lean ====
/-
  The reference's per-edge update, read index by index: the edge vector times the gathered charge, times the cosine cutoff
  of the edge's distance.
-/
import proofs.«416170_j9216999817553_3_alg».proof.Proof.Gen.ReferenceIdeal.Read
import proofs.«416170_j9216999817553_3_alg».proof.Proof.Spec
import Idealize.ShloMosaic.Lib.ValueIdx
import Idealize.ShloMosaic.PureOps.Ideal.Laws

noncomputable section

open scoped BigOperators

namespace Cert.ReferenceIdeal.Update

open Idealize.ShloMosaic Idealize.ShloMosaic.TcCoe Idealize.SL.Sem Idealize.ShloMosaic.ValueIdx
open Cert.ReferenceIdeal Cert.ReferenceIdeal.Gen Cert.ReferenceIdeal.Read

/-- The reference's cutoff at an edge: half of one plus the cosine of π times the distance over five, times the
    comparison "the distance is below five" as 0 or 1. -/
theorem cut_at (x1 : S6400000.Idx → EReal) (i : S6400000.Idx) :
    val_main_v22 (F := Ideal) x1 i = Cert.Spec.cut (x1 i) := by
  rw [val_main_v22_apply, val_main_v18_apply, val_main_v17_apply, val_main_cst_2_apply, val_main_v16_apply,
    val_main_v14_apply, val_main_v13_apply, val_main_v11_apply, val_main_v10_apply, val_main_cst_apply,
    val_main_v12_apply, val_main_cst_0_apply, val_main_v15_apply, val_main_cst_1_apply, val_main_v21_apply,
    val_main_v20_apply, val_main_v19_apply, val_main_cst_3_apply]
  simp only [Ideal.mulf_def, Ideal.addf_def, Ideal.hostDivf_def, Ideal.hostUnary_cos_def, Ideal.ofBits_def,
    Cert.Spec.below_of_unsigned]
  rfl

/-- The array the reference scatters is the specification's update of the edge vectors, the distances and the gathered
    column. -/
theorem update_eq (x0 : S100000x128.Idx → EReal) (x1 : S6400000.Idx → EReal) (x2 : S6400000x3.Idx → EReal)
    (x3 : IVec S6400000 32) (x5 : S128x128.Idx → EReal) (x6 : S128.Idx → EReal) (x7 : S128x1.Idx → EReal) (x8 : S1.Idx → EReal) :
    val_main_v34 (F := Ideal) x0 x1 x2 x3 x5 x6 x7 x8
      = Cert.Spec.update x2 x1 (val_main_v29 (F := Ideal) x0 x3 x5 x6 x7 x8) := by
  funext i
  -- the gathered column is read at the edge's row, the cutoff at the edge
  have e1 : idx_main_v30 i = ix2 (⟨(i 0).val, (i 0).isLt⟩ : Fin 6400000) (0 : Fin 1) :=
    funext fun a => Fin.ext (by match a with | ⟨0, _⟩ => rfl | ⟨1, _⟩ => rfl)
  have e2 : idx_main_v32 (idx_main_v33 i) = ix1 (⟨(i 0).val, (i 0).isLt⟩ : Fin 6400000) :=
    funext fun a => Fin.ext (by match a with | ⟨0, _⟩ => rfl)
  rw [val_main_v34_apply, val_main_v31_apply, val_main_v30_apply, val_main_v33_apply, val_main_v32_apply, cut_at, e1, e2]
  simp only [Ideal.mulf_def]
  rfl

end Cert.ReferenceIdeal.Update

end
-- ==== Proof.RefResult.lean ====
/-
  The reference's result as a function of its arguments: the scatter-add, into zeros at the destination indices, of the
  specification's update, with the charges gathered at the wrapped source indices.
-/
import proofs.«416170_j9216999817553_3_alg».proof.Proof.RefCharge
import proofs.«416170_j9216999817553_3_alg».proof.Proof.RefUpdate

noncomputable section

namespace Cert.ReferenceIdeal.Result

open Idealize.ShloMosaic Idealize.ShloMosaic.TcCoe Idealize.SL.Sem Idealize.ShloMosaic.ValueIdx
open Cert.ReferenceIdeal Cert.ReferenceIdeal.Gen Cert.ReferenceIdeal.Read

/-- The reference's result. -/
theorem result_eq (x0 : S100000x128.Idx → EReal) (x1 : S6400000.Idx → EReal) (x2 : S6400000x3.Idx → EReal)
    (x3 x4 : IVec S6400000 32) (x5 : S128x128.Idx → EReal) (x6 : S128.Idx → EReal) (x7 : S128x1.Idx → EReal) (x8 : S1.Idx → EReal) :
    val_main_v37 (F := Ideal) x0 x1 x2 x3 x4 x5 x6 x7 x8
      = Host.scatterAdd scatter_S100000x3_S6400000x1_S6400000x3_1_0_0_1
          (broadcastInDim S100000x3 ![] bcast_S_S100000x3 (constant (F := Ideal) S_ .f32 0x00000000#32))
          (broadcastInDim S6400000x1 ![0] bcast_S6400000_S6400000x1_0 x4)
          (Cert.Spec.update x2 x1
            (Host.gather gather_S100000x1_S6400000x1_S6400000x1_1_0_n_n_0_1_11 (Cert.Spec.charges x0 x5 x6 x7 x8)
              (val_main_v28 (F := Ideal) x3))) := by
  unfold val_main_v37
  rw [Cert.ReferenceIdeal.Update.update_eq]
  unfold val_main_v29
  rw [Cert.ReferenceIdeal.Charge.charge_eq]
  rfl

end Cert.ReferenceIdeal.Result

end
-- ==== Proof.lean ====
/-
  Both programs compute, for every node, the sum over the edges pointing at it of the edge vector times the charge of the
  edge's source node times the cosine cutoff of the edge's distance; the charge is two dense layers with the swish
  activation. The kernel program computes the charges in a first launch, gathers them with jnp's `take`, multiplies them by
  the cutoff in a second launch over a [50000, 128] view of the edges, and multiplies the edge vectors by that weight; the
  reference multiplies the edge vector by the gathered charge first and by the cutoff second. The two groupings agree
  because multiplication of extended reals is associative. `take` overwrites with a junk value every position whose wrapped
  index falls outside the table, where the reference's indexing clamps instead: the precondition keeps every source index
  in `-100000 … 99999`, the range in which the reference's own indexing is in range, and there nothing is overwritten.
  The scatter-add at the destination indices is the same operation of the same indices in both programs and is never opened.
-/
import proofs.«416170_j9216999817553_3_alg».proof.Defs
import proofs.«416170_j9216999817553_3_alg».proof.Proof.Gen.Kernel
import proofs.«416170_j9216999817553_3_alg».proof.Proof.Gen.Kernel.Skeleton
import proofs.«416170_j9216999817553_3_alg».proof.Proof.Gen.Kernel.Launch
import proofs.«416170_j9216999817553_3_alg».proof.Proof.Gen.Kernel.Points
import proofs.«416170_j9216999817553_3_alg».proof.Proof.Gen.Kernel.Frame
import proofs.«416170_j9216999817553_3_alg».proof.Proof.Gen.KernelIdeal
import proofs.«416170_j9216999817553_3_alg».proof.Proof.Gen.KernelIdeal.Skeleton
import proofs.«416170_j9216999817553_3_alg».proof.Proof.Gen.KernelIdeal.Launch
import proofs.«416170_j9216999817553_3_alg».proof.Proof.Gen.KernelIdeal.Points
import proofs.«416170_j9216999817553_3_alg».proof.Proof.Gen.KernelIdeal.Frame
import proofs.«416170_j9216999817553_3_alg».proof.Proof.Gen.ReferenceIdeal
import proofs.«416170_j9216999817553_3_alg».proof.Proof.Gen.Pre_finite_inputs
import Idealize.ShloMosaic.Adequacy
import Idealize.ShloMosaic.Init
import proofs.«416170_j9216999817553_3_alg».proof.Proof.Gen.ReferenceIdeal.Run
import proofs.«416170_j9216999817553_3_alg».proof.Proof.Gen.ReferenceIdeal.Read
import proofs.«416170_j9216999817553_3_alg».proof.Proof.KRun
import proofs.«416170_j9216999817553_3_alg».proof.Proof.KResult
import proofs.«416170_j9216999817553_3_alg».proof.Proof.RefResult
import proofs.«416170_j9216999817553_3_alg».proof.Proof.PreRange

noncomputable section

namespace Cert.Proof

open Idealize.ShloMosaic Idealize.ShloMosaic.TcCoe Idealize.SL.Sem

/-- Under the precondition every source index of the kernel program's launch memory is in `-100000 … 99999`. -/
theorem src_in_range (m : (ℓ : Loc Cert.KernelIdeal.nD Cert.KernelIdeal.τ Cert.KernelIdeal.sig) → Buf (Elt Ideal) ℓ) (hpre : Cert.Pre_KernelIdeal m)
    (c : Dev Cert.KernelIdeal.nD) (e : Cert.KernelIdeal.S6400000.Idx) :
    (-100000 : Int) ≤ (Cert.KernelIdeal.Bd.srcArg m c e).toInt ∧ (Cert.KernelIdeal.Bd.srcArg m c e).toInt < 100000 :=
  Cert.PreRange.src_range _ _ _ _ _ _ _ _ _ (hpre c) e

/-- The wrapped source indices are spelled by the same operations in both programs. -/
theorem wrapped_eq (x3 : IVec Cert.KernelIdeal.S6400000 32) :
    Cert.KernelIdeal.Take.wrapped x3 = Cert.ReferenceIdeal.Read.val_main_v28 (F := Ideal) x3 := rfl

/-- From memories that agree on the arguments, both idealized programs end with the same result array. -/
theorem algebraic : Cert.algebraic_KernelIdeal_ReferenceIdeal := by
  intro m ρ m' ρ' hpre hagree
  refine ⟨fun c => Cert.KernelIdeal.Bd.resultArr m ρ c, Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v37_eq, Cert.ReferenceIdeal.Result.result_eq, a0, a1, a2, a3, a4, a5, a6, a7, a8]
  show _ = Cert.KernelIdeal.Bd.resultArr m ρ c
  rw [Cert.KernelIdeal.Result.result_eq m ρ c (fun e => src_in_range m hpre c e), wrapped_eq]
  rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
